-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S400000x2 : Shape := ⟨2, ![400000, 2]⟩
abbrev S400000 : Shape := ⟨1, ![400000]⟩
abbrev S4096 : Shape := ⟨1, ![4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S400000 : S_.BroadcastsInDim S400000 (![] : Fin 0 → Fin S400000.rank)
  reducesTo_S400000_S_d0 : S400000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x8192 .f32) (main_arg1 : IVec S400000x2 32) (main_arg2 : FVec F S400000 .f32) (main_arg3 : FVec F S4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x8192 : Shape := ⟨2, ![4096, 8192]⟩
abbrev S400000x2 : Shape := ⟨2, ![400000, 2]⟩
abbrev S400000 : Shape := ⟨1, ![400000]⟩
abbrev S4096 : Shape := ⟨1, ![4096]⟩
abbrev S_ : Shape := ⟨0, ![]⟩
abbrev S8192x4096 : Shape := ⟨2, ![8192, 4096]⟩
abbrev S400000x1 : Shape := ⟨2, ![400000, 1]⟩
abbrev S1x4096 : Shape := ⟨2, ![1, 4096]⟩
abbrev S4096x4096 : Shape := ⟨2, ![4096, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 30
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S400000x2, .i32⟩
  | .hbm, ⟨2, _⟩ => ⟨S400000, .f32⟩
  | .hbm, ⟨3, _⟩ => ⟨S4096, .f32⟩
  | .hbm, ⟨4, _⟩ => ⟨S_, .f32⟩
  | .hbm, ⟨5, _⟩ => ⟨S8192x4096, .f32⟩
  | .hbm, ⟨6, _⟩ => ⟨S400000x1, .i32⟩
  | .hbm, ⟨7, _⟩ => ⟨S400000, .i32⟩
  | .hbm, ⟨8, _⟩ => ⟨S400000x1, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x1, .i32⟩
  | .hbm, ⟨26, _⟩ => ⟨S400000x2, .i32⟩
  | .hbm, ⟨27, _⟩ => ⟨S8192x4096, .f32⟩
  | .hbm, ⟨28, _⟩ => ⟨S1x4096, .f32⟩
  | .hbm, ⟨29, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8192x4096 : S_.BroadcastsInDim S8192x4096 (![] : Fin 0 → Fin S8192x4096.rank)
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  scatter_S8192x4096_S400000x2_S400000_n_01_01_1_wf : ScatterDims.WF S8192x4096 S400000x2 S400000 [] [0, 1] [0, 1] 1
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x8192.size a
  hwx0_0 : ∀ i : grid0.Coords, EltTy.bits .f32 = 32 ∨ (Rect.block (s := S4096x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .f32 = 32 ∨ (Rect.block (s := S8192x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)

variable [Facts₀]

def scatter_S8192x4096_S400000x2_S400000_n_01_01_1 : ScatterDims S8192x4096 S400000x2 S400000 where
  updateWindowDims := []
  insertedWindowDims := [0, 1]
  scatterDimsToOperandDims := [0, 1]
  indexVectorDim := 1
  wf := scatter_S8192x4096_S400000x2_S400000_n_01_01_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S400000x2 : Shape := ⟨2, ![400000, 2]⟩
abbrev S400000 : Shape := ⟨1, ![400000]⟩
abbrev S4096 : Shape := ⟨1, ![4096]⟩
abbrev S_ : Shape := ⟨0, ![]⟩
abbrev S8192x4096 : Shape := ⟨2, ![8192, 4096]⟩
abbrev S400000x1 : Shape := ⟨2, ![400000, 1]⟩
abbrev S4096x4096 : Shape := ⟨2, ![4096, 4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S400000x2, .i32⟩
  | .hbm, ⟨2, _⟩ => ⟨S400000, .f32⟩
  | .hbm, ⟨3, _⟩ => ⟨S4096, .f32⟩
  | .hbm, ⟨4, _⟩ => ⟨S_, .f32⟩
  | .hbm, ⟨5, _⟩ => ⟨S8192x4096, .f32⟩
  | .hbm, ⟨6, _⟩ => ⟨S400000x1, .i32⟩
  | .hbm, ⟨7, _⟩ => ⟨S400000, .i32⟩
  | .hbm, ⟨8, _⟩ => ⟨S400000x1, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x1, .i32⟩
  | .hbm, ⟨26, _⟩ => ⟨S400000x2, .i32⟩
  | .hbm, ⟨27, _⟩ => ⟨S8192x4096, .f32⟩
  | .hbm, ⟨28, _⟩ => ⟨S4096x4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S8192x4096_S400000x2_S400000_n_01_01_1_wf : ScatterDims.WF S8192x4096 S400000x2 S400000 [] [0, 1] [0, 1] 1
  dot_S4096x8192_S8192x4096_S4096x4096_1_0_0_1_n_n_wf : DotDims.WF S4096x8192 S8192x4096 S4096x4096 [1] [0] [0] [1] [] []

variable [Facts₀]

def scatter_S8192x4096_S400000x2_S400000_n_01_01_1 : ScatterDims S8192x4096 S400000x2 S400000 where
  updateWindowDims := []
  insertedWindowDims := [0, 1]
  scatterDimsToOperandDims := [0, 1]
  indexVectorDim := 1
  wf := scatter_S8192x4096_S400000x2_S400000_n_01_01_1_wf
def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf

class Facts : Prop extends Facts₀ where

variable [Facts]
-- ==== Proof.BlockSum.lean ====
/-
  A contraction over an axis of length 8192, accumulated in eight consecutive stretches of 1024 terms.

  For a left factor `X` (rows × 8192) and a right factor `W` (8192 × columns) over the extended reals,
  `term X W r c l` is the `l`-th product `X r l * W l c` of the contraction at row `r` and column `c`
  (zero past the axis' end), and `psum X W r c n` is the sum of the first `n` of them. Adding one stretch of
  1024 products to `psum … n` gives `psum … (n + 1024)` (`psum_add_block`), the empty sum is zero, and all
  8192 of them are the whole contraction (`psum_full`). Addition on the extended reals is commutative and
  associative, so none of this needs the summands to be finite.
-/
import Mathlib.Algebra.BigOperators.Fin
import Mathlib.Data.EReal.Basic

open scoped BigOperators

namespace Cert.BlockSum

variable (X : Fin 4096 → Fin 8192 → EReal) (W : Fin 8192 → Fin 4096 → EReal)

/-- The `l`-th product of the contraction at row `r`, column `c`; zero when `l` is past the axis' end. -/
noncomputable def term (r c : Fin 4096) (l : ℕ) : EReal :=
  if h : l < 8192 then X r ⟨l, h⟩ * W ⟨l, h⟩ c else 0

/-- The sum of the first `n` products of the contraction at row `r`, column `c`. -/
noncomputable def psum (r c : Fin 4096) (n : ℕ) : EReal :=
  ∑ l ∈ Finset.range n, term X W r c l

theorem psum_zero (r c : Fin 4096) : psum X W r c 0 = 0 := by
  unfold psum
  rw [Finset.range_zero, Finset.sum_empty]

/-- One more stretch of 1024 products. -/
theorem psum_add_block (r c : Fin 4096) (n : ℕ) :
    psum X W r c (n + 1024) = psum X W r c n + ∑ kk : Fin 1024, term X W r c (n + kk.val) := by
  unfold psum
  rw [Finset.sum_range_add, Finset.sum_range (fun x => term X W r c (n + x))]

/-- All 8192 products: the whole contraction. -/
theorem psum_full (r c : Fin 4096) : psum X W r c 8192 = ∑ k : Fin 8192, X r k * W k c := by
  unfold psum
  rw [Finset.sum_range]
  refine Finset.sum_congr rfl fun k _ => ?_
  unfold term
  rw [dif_pos k.isLt]

/-- The result of the layer at row `r`, column `c`: the hyperbolic tangent `th` of the contraction plus the
    column's bias. -/
noncomputable def layer (th : EReal → EReal) (b : Fin 4096 → EReal) (r c : Fin 4096) : EReal :=
  th (psum X W r c 8192 + b c)

end Cert.BlockSum
-- ==== Proof.Payloads.lean ====
/-
  What one grid point leaves in the accumulator and in the output block.

  The body at a point stores at most three blocks: a zero block into the accumulator (first stretch only), the
  accumulator plus the product of the point's left and right blocks (every point), and, at the last stretch, the
  hyperbolic tangent of the accumulator plus the bias row into the output block. Each load reads a block whole, so
  what a point leaves is these values of the blocks it was given (first part, for any float instance); over the
  extended reals each is then read at one entry (second part): zero, the old entry plus 1024 products, and the
  hyperbolic tangent of the entry plus the column's bias.
-/
import proofs.«176516_j15504831938689_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Pay

open Cert.KernelIdeal Cert.KernelIdeal.Gen

variable {F : FTy → Type} [FloatOps F]

/-- Every block is read and stored from its origin. -/
theorem hz : (![0, 0] : Fin 2 → Nat) = fun _ => 0 := funext fun a => by fin_cases a <;> rfl

/-- At a point that is neither the first nor the last stretch the accumulator, holding `xs0`, is left at `xs0`
    plus the product of the left block `x0` and the right block `x1`. -/
theorem scratch_B (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : ¬cond0_1 i)
    (x0 : Vec F S512x1024 .f32) (x1 : Vec F S1024x1024 .f32) (x2 : Vec F S1x1024 .f32) (xs0 : Vec F S512x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread,
    View.ld_unit_zero (S := S512x1024) hz, View.ld_unit_zero (S := S1024x1024) hz]

/-- At the last stretch the accumulator is updated the same way. -/
theorem scratch_C (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : cond0_1 i)
    (x0 : Vec F S512x1024 .f32) (x1 : Vec F S1024x1024 .f32) (x2 : Vec F S1x1024 .f32) (xs0 : Vec F S512x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread,
    View.ld_unit_zero (S := S512x1024) hz, View.ld_unit_zero (S := S1024x1024) hz]

/-- At the last stretch the output block is left at the epilogue of the updated accumulator and the bias block `x2`:
    the accumulator is read back after its store. -/
theorem out_C (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : cond0_1 i)
    (x0 : Vec F S512x1024 .f32) (x1 : Vec F S1024x1024 .f32) (x2 : Vec F S1x1024 .f32) (xs0 : Vec F S512x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readCov_unit_zero (S := S512x1024) _ hz, View.readAt_eq_ld, h3.read_unread, h4.read_unread,
    h5.read_unread, h7.read_unread, View.ld_unit_zero (S := S512x1024) hz, View.ld_unit_zero (S := S1024x1024) hz,
    View.ld_unit_zero (S := S1x1024) hz]

/-- At the first stretch the accumulator is first reset and then updated: it is left at the reset block plus the
    product, whatever it held before. -/
theorem scratch_A (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : cond0_0 i) (hc1 : ¬cond0_1 i)
    (x0 : Vec F S512x1024 .f32) (x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) hz, View.readCov_unit_zero (S := S512x1024) _ hz]
  simp only [View.readAt_eq_ld, h3.read_unread, h4.read_unread,
    View.ld_unit_zero (S := S512x1024) hz, View.ld_unit_zero (S := S1024x1024) hz]

/-! ## The payloads over the extended reals, read at one element -/

section AtIdeal

open Idealize.ShloMosaic.ValueIdx

/-- The block the accumulator is reset to is zero everywhere. -/
theorem pay1_apply (y : S512x1024.Idx) : k0_pay1 (F := Ideal) y = 0 := by
  unfold k0_pay1
  rw [shapeCast_self]
  show Ideal.ofBits .f32 0x00000000#32 = 0
  exact Ideal.ofBits_zero_f32

/-- The product's index maps, axis by axis: entry (p, q) at contraction position `k` reads the left block at (p, k) and
    the right block at (k, q). -/
theorem lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- One accumulation step at row `p`, column `q` of the block: what the accumulator held there plus the 1024 products
    of row `p` of the left block with column `q` of the right block (the narrowing to bf16 is the identity on the
    extended reals, and the product unit starts from zero). -/
theorem pay2_apply (v3 : Vec Ideal S512x1024 .f32) (v5 : Vec Ideal S1024x1024 .f32) (v8 : Vec Ideal S512x1024 .f32)
    (p : Fin 512) (q : Fin 1024) :
    k0_pay2 (F := Ideal) v3 v5 v8 (ix2 p q) = v8 (ix2 p q) + ∑ kk : Fin 1024, v3 (ix2 p kk) * v5 (ix2 kk q) := by
  unfold k0_pay2
  simp only [shapeCast_self]
  show v8 (ix2 p q) + FloatOps.matmul (F := Ideal) dot_S512x1024_S1024x1024_S512x1024_1_0_0_1_n_n none
    (truncf .bf16 v3 bitsLt_bf16_f32) (truncf .bf16 v5 bitsLt_bf16_f32) (constant (F := Ideal) S512x1024 .f32 0x00000000#32) (ix2 p q) = _
  rw [Ideal.matmul_constant_zero_apply,
    ← Equiv.sum_comp (contrEquiv1 dot_S512x1024_S1024x1024_S512x1024_1_0_0_1_n_n 1024 rfl rfl).symm]
  congr 1
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]
  rfl

/-- The epilogue at row `p`, column `q` of the block: the hyperbolic tangent of the accumulated value plus the bias of
    the column (the bias block has one row, repeated down the 512 rows). -/
theorem pay3_apply (v17 : Vec Ideal S512x1024 .f32) (v18 : Vec Ideal S1x1024 .f32) (p : Fin 512) (q : Fin 1024) :
    k0_pay3 (F := Ideal) v17 v18 (ix2 p q) = Ideal.tanh (v17 (ix2 p q) + v18 (ix2 (0 : Fin 1) q)) := by
  unfold k0_pay3
  simp only [shapeCast_self]
  show Ideal.tanh (v17 (ix2 p q) + broadcastTo S512x1024 v18 _ (ix2 p q)) = _
  rw [broadcastTo_apply v18 _ (ix2 p q) (ix2 (0 : Fin 1) q) (fun a => by
    match a with
    | ⟨0, _⟩ => show (0 : ℕ) = if (1 : ℕ) = 1 then 0 else _; rw [if_pos rfl]
    | ⟨1, _⟩ => show q.val = if (1024 : ℕ) = 1 then 0 else _; rw [if_neg (by decide)]; rfl)]

end AtIdeal

end Cert.KernelIdeal.Pay

end
-- ==== Proof.Accum.lean ====
/-
  The accumulator across the grid. The grid has 8 × 4 × 8 points, the last axis running fastest: point `t` works on
  row block `t / 32` (512 rows), column block `t / 8 % 4` (1024 columns) and stretch `t % 8` of the contracted axis
  (1024 terms). The accumulator is reset where the stretch is 0 and one stretch is added at every point, so after
  point `t` its entry (p, q) is the sum of the first `(t % 8 + 1) · 1024` products of the contraction at row
  `t / 32 · 512 + p` and column `t / 8 % 4 · 1024 + q` of the whole product — by induction along the points, never
  by enumerating them. At the last stretch the output block is the hyperbolic tangent of that (then complete) sum plus
  the column's bias.
-/
import proofs.«176516_j15504831938689_1_alg».proof.Proof.BlockSum
import proofs.«176516_j15504831938689_1_alg».proof.Proof.Payloads
import proofs.«176516_j15504831938689_1_alg».proof.Proof.Gen.KernelIdeal.Value

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.BlockSum

variable (m : (ℓ : Loc nD τ sig) → Buf (Elt Ideal) ℓ)

/-- The three arrays the region reads, as it finds them, and the three blocks of a point, at their literal types. -/
abbrev xarr (c : Dev nD) : Vec Ideal S4096x8192 .f32 := V m c main_arg0
abbrev warr (c : Dev nD) : Vec Ideal S8192x4096 .f32 := V m c main_v18
abbrev barr (c : Dev nD) : Vec Ideal S1x4096 .f32 := V m c main_v19
abbrev xblk (c : Dev nD) (t : Fin cfg0.N) : Vec Ideal S512x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t

/-- The two factors by coordinates. -/
abbrev X (c : Dev nD) : Fin 4096 → Fin 8192 → EReal := fun r k => xarr m c (ix2 r k)
abbrev W (c : Dev nD) : Fin 8192 → Fin 4096 → EReal := fun k cc => warr m c (ix2 k cc)

theorem lt256 (t : Fin cfg0.N) : t.val < 256 := lt_of_lt_of_eq t.isLt (show cfg0.N = 256 from N_0)

/-- Row `p` of point `t`'s blocks is this row of the whole product, and column `q` this column. -/
def row (t : Fin cfg0.N) (p : Fin 512) : Fin 4096 := ⟨t.val / 32 * 512 + p.val, by have := lt256 t; have := p.isLt; omega⟩
def col (t : Fin cfg0.N) (q : Fin 1024) : Fin 4096 := ⟨t.val / 8 % 4 * 1024 + q.val, by have := q.isLt; omega⟩

/-- Which block of its array each window is on at point `t`, decided once over the grid. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The left block at (p, kk) is the left factor at row `t / 32 · 512 + p`, position `t % 8 · 1024 + kk`. -/
theorem xblk_apply (c : Dev nD) (t : Fin cfg0.N) (p : Fin 512) (kk : Fin 1024) (r : Fin 4096) (l : Fin 8192)
    (hr : r.val = t.val / 32 * 512 + p.val) (hl : l.val = t.val % 8 * 1024 + kk.val) :
    xblk m c t (ix2 p kk) = xarr m c (ix2 r l) := by
  obtain ⟨e0, e1, -⟩ := idx_facts t
  show V m c main_arg0 (((cfg0.win 0).blk t).view.emb (ix2 p kk)) = V m c main_arg0 (ix2 r l)
  congr 1
  funext a; apply Fin.ext
  match a with
  | ⟨0, _⟩ => show win0_0.index t (0 : Fin 2) * 512 + 1 * p.val = r.val; omega
  | ⟨1, _⟩ => show win0_0.index t (1 : Fin 2) * 1024 + 1 * kk.val = l.val; omega

/-- The right block at (kk, q) is the right factor at position `t % 8 · 1024 + kk`, column `t / 8 % 4 · 1024 + q`. -/
theorem wblk_apply (c : Dev nD) (t : Fin cfg0.N) (kk : Fin 1024) (q : Fin 1024) (l : Fin 8192) (cc : Fin 4096)
    (hl : l.val = t.val % 8 * 1024 + kk.val) (hc : cc.val = t.val / 8 % 4 * 1024 + q.val) :
    wblk m c t (ix2 kk q) = warr m c (ix2 l cc) := by
  obtain ⟨-, -, e2, e3, -⟩ := idx_facts t
  show V m c main_v18 (((cfg0.win 1).blk t).view.emb (ix2 kk q)) = V m c main_v18 (ix2 l cc)
  congr 1
  funext a; apply Fin.ext
  match a with
  | ⟨0, _⟩ => show win0_1.index t (0 : Fin 2) * 1024 + 1 * kk.val = l.val; omega
  | ⟨1, _⟩ => show win0_1.index t (1 : Fin 2) * 1024 + 1 * q.val = cc.val; omega

/-- The bias block at (0, q) is the bias row at column `t / 8 % 4 · 1024 + q`. -/
theorem bblk_apply (c : Dev nD) (t : Fin cfg0.N) (q : Fin 1024) (cc : Fin 4096)
    (hc : cc.val = t.val / 8 % 4 * 1024 + q.val) :
    bblk m c t (ix2 (0 : Fin 1) q) = barr m c (ix2 (0 : Fin 1) cc) := by
  obtain ⟨-, -, -, -, e4, e5, -⟩ := idx_facts t
  show V m c main_v19 (((cfg0.win 2).blk t).view.emb (ix2 (0 : Fin 1) q)) = V m c main_v19 (ix2 (0 : Fin 1) cc)
  congr 1
  funext a; apply Fin.ext
  match a with
  | ⟨0, _⟩ => show win0_2.index t (0 : Fin 2) * 1 + 1 * 0 = 0; omega
  | ⟨1, _⟩ => show win0_2.index t (1 : Fin 2) * 1024 + 1 * q.val = cc.val; omega

/-- The 1024 products one point contributes are stretch `t % 8` of the contraction at the point's row and column. -/
theorem block_sum (c : Dev nD) (t : Fin cfg0.N) (p : Fin 512) (q : Fin 1024) :
    ∑ kk : Fin 1024, xblk m c t (ix2 p kk) * wblk m c t (ix2 kk q)
      = ∑ kk : Fin 1024, term (X m c) (W m c) (row t p) (col t q) (t.val % 8 * 1024 + kk.val) := by
  refine Finset.sum_congr rfl fun kk _ => ?_
  have hlt : t.val % 8 * 1024 + kk.val < 8192 := by have := kk.isLt; omega
  unfold term
  rw [dif_pos hlt, xblk_apply m c t p kk (row t p) ⟨_, hlt⟩ rfl rfl, wblk_apply m c t kk q ⟨_, hlt⟩ (col t q) rfl rfl]

/-- One accumulation step: what held the first `t % 8` stretches holds the first `t % 8 + 1` after the point. -/
theorem step (c : Dev nD) (t : Fin cfg0.N) (p : Fin 512) (q : Fin 1024) (a : EReal)
    (ha : a = psum (X m c) (W m c) (row t p) (col t q) (t.val % 8 * 1024)) :
    a + ∑ kk : Fin 1024, xblk m c t (ix2 p kk) * wblk m c t (ix2 kk q)
      = psum (X m c) (W m c) (row t p) (col t q) ((t.val % 8 + 1) * 1024) := by
  rw [block_sum m c t p q, ha, Nat.add_mul, Nat.one_mul, psum_add_block]

/-- THE ACCUMULATOR after point `n`: the first `(n % 8 + 1) · 1024` products at the point's row and column. -/
theorem acc_eq (c : Dev nD) : ∀ (n : ℕ) (hn : n < cfg0.N) (p : Fin 512) (q : Fin 1024),
    (outsAt0 m c n hn).2 (ix2 p q)
      = psum (X m c) (W m c) (row ⟨n, hn⟩ p) (col ⟨n, hn⟩ q) ((n % 8 + 1) * 1024) := by
  intro n
  induction n using Nat.strong_induction_on with
  | _ n ih =>
    intro hn p q
    have hN : n < 256 := lt256 ⟨n, hn⟩
    by_cases h0 : n % 8 = 0
    · have h1 : ¬n % 8 = 7 := by omega
      rw [outsAt0_A m c ⟨n, hn⟩ h0 h1]
      dsimp only
      refine (congrFun (Pay.scratch_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (xblk m c ⟨n, hn⟩) (wblk m c ⟨n, hn⟩) (bblk m c ⟨n, hn⟩)) (ix2 p q)).trans ?_
      rw [Pay.pay2_apply]
      refine step m c ⟨n, hn⟩ p q _ ((Pay.pay1_apply _).trans ?_)
      show (0 : EReal) = psum (X m c) (W m c) (row ⟨n, hn⟩ p) (col ⟨n, hn⟩ q) (n % 8 * 1024)
      rw [h0, Nat.zero_mul, psum_zero]
    · have hn' : n - 1 < cfg0.N := Nat.lt_of_le_of_lt (Nat.sub_le _ _) hn
      have ihv := ih (n - 1) (by omega) hn' p q
      have er : row ⟨n - 1, hn'⟩ p = row ⟨n, hn⟩ p :=
        Fin.ext (by show (n - 1) / 32 * 512 + p.val = n / 32 * 512 + p.val; omega)
      have ec : col ⟨n - 1, hn'⟩ q = col ⟨n, hn⟩ q :=
        Fin.ext (by show (n - 1) / 8 % 4 * 1024 + q.val = n / 8 % 4 * 1024 + q.val; omega)
      have ek : ((n - 1) % 8 + 1) * 1024 = n % 8 * 1024 := by omega
      rw [er, ec, ek] at ihv
      by_cases h1 : n % 8 = 7
      · rw [outsAt0_C m c ⟨n, hn⟩ h0 h1]
        dsimp only
        refine (congrFun (Pay.scratch_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1) (xblk m c ⟨n, hn⟩) (wblk m c ⟨n, hn⟩) (bblk m c ⟨n, hn⟩) ((outsAt0 m c (n - 1) hn').2)) (ix2 p q)).trans ?_
        rw [Pay.pay2_apply]
        exact step m c ⟨n, hn⟩ p q _ ihv
      · rw [outsAt0_B m c ⟨n, hn⟩ h0 h1]
        dsimp only
        refine (congrFun (Pay.scratch_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) (fun h => h1 ((hcond0_1 ⟨n, hn⟩).mp h)) (xblk m c ⟨n, hn⟩) (wblk m c ⟨n, hn⟩) (bblk m c ⟨n, hn⟩) ((outsAt0 m c (n - 1) hn').2)) (ix2 p q)).trans ?_
        rw [Pay.pay2_apply]
        exact step m c ⟨n, hn⟩ p q _ ihv

/-- THE OUTPUT BLOCK at a point of the last stretch: the hyperbolic tangent of the whole contraction at the point's
    row and column plus the column's bias. -/
theorem out_eq (c : Dev nD) (t : Fin cfg0.N) (h1 : t.val % 8 = 7) (p : Fin 512) (q : Fin 1024) :
    (outsAt0 m c t.val t.isLt).1 (ix2 p q)
      = Ideal.tanh (psum (X m c) (W m c) (row t p) (col t q) 8192 + barr m c (ix2 (0 : Fin 1) (col t q))) := by
  have h0 : ¬t.val % 8 = 0 := by omega
  have hn' : t.val - 1 < cfg0.N := Nat.lt_of_le_of_lt (Nat.sub_le _ _) t.isLt
  have hs : k0_pay2 (F := Ideal) (xblk m c t) (wblk m c t) ((outsAt0 m c (t.val - 1) hn').2) (ix2 p q)
      = psum (X m c) (W m c) (row t p) (col t q) ((t.val % 8 + 1) * 1024) := by
    have hacc := acc_eq m c t.val t.isLt p q
    rw [outsAt0_C m c t h0 h1] at hacc
    dsimp only at hacc
    exact (congrFun (Pay.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) ((outsAt0 m c (t.val - 1) hn').2)) (ix2 p q)).symm.trans hacc
  have e8 : (t.val % 8 + 1) * 1024 = 8192 := by omega
  rw [outsAt0_C m c t h0 h1]
  dsimp only
  refine (congrFun (Pay.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) ((outsAt0 m c (t.val - 1) hn').2)) (ix2 p q)).trans ?_
  rw [Pay.pay3_apply, hs, e8, bblk_apply m c t q (col t q) rfl]

end Cert.KernelIdeal.Acc

end
-- ==== Proof.Arrays.lean ====
/-
  The arrays the matrix-product region finds when it is entered: the left factor is the first argument
  untouched, the right factor is the dense 8192 × 4096 matrix that the host builds by adding the 400000
  values into a zero matrix at their (row, column) pairs (negative coordinates wrapped once by the axis'
  length first), and the bias is the fourth argument laid out as one row.
-/
import proofs.«176516_j15504831938689_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem

namespace Cert.KernelIdeal.Arr

open Cert.KernelIdeal Cert.KernelIdeal.Gen Idealize.ShloMosaic.ValueIdx

variable {F : FTy → Type} [FloatOps F]

/-- The dense right factor: the zero matrix with `vals n` added at row `idx n 0`, column `idx n 1` for every `n`,
    a negative coordinate first moved up by its axis' length — the host's own term, never opened. -/
def dense (idx : (⟨S400000x2, .i32⟩ : BufTy).Contents (Elt F)) (vals : (⟨S400000, .f32⟩ : BufTy).Contents (Elt F)) :
    (⟨S8192x4096, .f32⟩ : BufTy).Contents (Elt F) :=
  Host.scatterAdd scatter_S8192x4096_S400000x2_S400000_n_01_01_1 (broadcastInDim S8192x4096 ![] bcast_S_S8192x4096 (constant (F := F) S_ .f32 0x00000000#32)) (concatenate S400000x2 1 [⟨S400000x1, (broadcastInDim S400000x1 ![0] bcast_S400000_S400000x1_0 (select (cmpi .slt (shapeCast _ (extractStridedSlice S400000x1 ![0, 0] idx slices_S400000x2_S400000x1_0_0) shapeCasts_S400000x1_S400000) (broadcastInDim S400000 ![] bcast_S_S400000 (constantI S_ 32 0#32))) (addi (shapeCast _ (extractStridedSlice S400000x1 ![0, 0] idx slices_S400000x2_S400000x1_0_0) shapeCasts_S400000x1_S400000) (broadcastInDim S400000 ![] bcast_S_S400000 (constantI S_ 32 8192#32))) (shapeCast _ (extractStridedSlice S400000x1 ![0, 0] idx slices_S400000x2_S400000x1_0_0) shapeCasts_S400000x1_S400000)))⟩, ⟨S400000x1, (broadcastInDim S400000x1 ![0] bcast_S400000_S400000x1_0 (select (cmpi .slt (shapeCast _ (extractStridedSlice S400000x1 ![0, 1] idx slices_S400000x2_S400000x1_0_1) shapeCasts_S400000x1_S400000) (broadcastInDim S400000 ![] bcast_S_S400000 (constantI S_ 32 0#32))) (addi (shapeCast _ (extractStridedSlice S400000x1 ![0, 1] idx slices_S400000x2_S400000x1_0_1) shapeCasts_S400000x1_S400000) (broadcastInDim S400000 ![] bcast_S_S400000 (constantI S_ 32 4096#32))) (shapeCast _ (extractStridedSlice S400000x1 ![0, 1] idx slices_S400000x2_S400000x1_0_1) shapeCasts_S400000x1_S400000)))⟩] concatenates_S400000x1_S400000x1_S400000x2_d1) vals

variable (m : (ℓ : Loc nD τ sig) → Buf (Elt F) ℓ)

set_option maxHeartbeats 4000000 in
/-- The right factor's array at region entry is the dense matrix of the second and third arguments. -/
theorem V_dense (c : Dev nD) :
    (V m c main_v18 : (⟨S8192x4096, .f32⟩ : BufTy).Contents (Elt F))
      = dense (m ((c : Thread nD τ).loc main_arg1)) (m ((c : Thread nD τ).loc main_arg2)) := by
  dsimp only [Gen.V, Gen.hostOps0]
  after_results
  rfl

set_option maxHeartbeats 4000000 in
/-- The bias' array at region entry is the fourth argument as one row. -/
theorem V_bias (c : Dev nD) :
    (V m c main_v19 : (⟨S1x4096, .f32⟩ : BufTy).Contents (Elt F))
      = shapeCast S1x4096 (m ((c : Thread nD τ).loc main_arg3)) shapeCasts_S4096_S1x4096 := by
  dsimp only [Gen.V, Gen.hostOps0]
  after_results
  rfl

/-- Row 0, column `q` of the bias row is entry `q` of the bias. -/
theorem bias_row_apply {α : Type} (b : S4096.Idx → α) (q : Fin 4096) :
    shapeCast S1x4096 b shapeCasts_S4096_S1x4096 (ix2 (0 : Fin 1) q) = b (ix1 q) := by
  rw [shapeCast_addUnit_apply ![4096] b shapeCasts_S4096_S1x4096 (ix2 (0 : Fin 1) q)]
  congr 1
  funext a
  match a with
  | ⟨0, _⟩ => rfl

end Cert.KernelIdeal.Arr

end
-- ==== Proof.Result.lean ====
/-
  What the layer computes, as ONE function of the four arguments: entry (r, c) of the result is the hyperbolic tangent
  of the contraction of row `r` of the input with column `c` of the dense matrix, plus entry `c` of the bias.
-/
import proofs.«176516_j15504831938689_1_alg».proof.Proof.BlockSum
import proofs.«176516_j15504831938689_1_alg».proof.Proof.Arrays

noncomputable section

open Idealize.ShloMosaic Idealize.ShloMosaic.TcCoe

namespace Cert.KernelIdeal.Res

open Cert.KernelIdeal Idealize.ShloMosaic.ValueIdx Cert.BlockSum

/-- The result array of the layer over the extended reals. -/
def result (x0 : (⟨S4096x8192, .f32⟩ : BufTy).Contents (Elt Ideal)) (x1 : (⟨S400000x2, .i32⟩ : BufTy).Contents (Elt Ideal))
    (x2 : (⟨S400000, .f32⟩ : BufTy).Contents (Elt Ideal)) (x3 : (⟨S4096, .f32⟩ : BufTy).Contents (Elt Ideal)) :
    (⟨S4096x4096, .f32⟩ : BufTy).Contents (Elt Ideal) :=
  fun i => layer (fun r k => x0 (ix2 r k)) (fun k cc => Arr.dense (F := Ideal) x1 x2 (ix2 k cc)) Ideal.tanh
    (fun cc => x3 (ix1 cc)) ⟨(i 0).val, idx2_lt0 i⟩ ⟨(i 1).val, idx2_lt1 i⟩

end Cert.KernelIdeal.Res

end
-- ==== Proof.KernelValue.lean ====
/-
  The kernel's result array. The output window writes a block back only at the points of the last stretch, where the
  block holds the layer's function of the arguments at the block's rows and columns; the 8 × 4 blocks written back
  tile the 4096 × 4096 array (entry (r, c) lies in the block written at point `r / 512 · 32 + c / 1024 · 8 + 7`),
  so the array ends holding that function everywhere.
-/
import proofs.«176516_j15504831938689_1_alg».proof.Proof.Accum
import proofs.«176516_j15504831938689_1_alg».proof.Proof.Result

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.BlockSum Cert.KernelIdeal.Acc

variable (m : (ℓ : Loc nD τ sig) → Buf (Elt Ideal) ℓ) (ρ : Dev nD → PrngReg)

/-- The layer's function of the arguments as launched. -/
abbrev res (c : Dev nD) : Buf (Elt Ideal) ((c : Thread nD τ).loc main_v20) :=
  Res.result (m ((c : Thread nD τ).loc main_arg0)) (m ((c : Thread nD τ).loc main_arg1))
    (m ((c : Thread nD τ).loc main_arg2)) (m ((c : Thread nD τ).loc main_arg3))

/-- The left factor the region finds is the first argument. -/
theorem X_eq (c : Dev nD) : X m c = fun r k => m ((c : Thread nD τ).loc main_arg0) (ix2 r k) := by
  funext r k
  show V m c main_arg0 (ix2 r k) = _
  rw [V_main_arg0]

/-- The right factor it finds is the dense matrix of the second and third arguments. -/
theorem W_eq (c : Dev nD) : W m c = fun k cc =>
    Arr.dense (F := Ideal) (m ((c : Thread nD τ).loc main_arg1)) (m ((c : Thread nD τ).loc main_arg2)) (ix2 k cc) := by
  funext k cc
  show (V m c main_v18 : (⟨S8192x4096, .f32⟩ : BufTy).Contents (Elt Ideal)) (ix2 k cc) = _
  rw [Arr.V_dense]

/-- The bias row it finds holds the fourth argument. -/
theorem b_eq (c : Dev nD) (cc : Fin 4096) :
    barr m c (ix2 (0 : Fin 1) cc) = m ((c : Thread nD τ).loc main_arg3) (ix1 cc) := by
  show (V m c main_v19 : (⟨S1x4096, .f32⟩ : BufTy).Contents (Elt Ideal)) (ix2 (0 : Fin 1) cc) = _
  rw [Arr.V_bias, Arr.bias_row_apply]

/-- The layer's function at an entry, over the arrays the region finds. -/
theorem res_apply (c : Dev nD) (i : S4096x4096.Idx) (r cc : Fin 4096) (hr : r.val = (i 0).val) (hc : cc.val = (i 1).val) :
    res m c i = Ideal.tanh (psum (X m c) (W m c) r cc 8192 + barr m c (ix2 (0 : Fin 1) cc)) := by
  obtain rfl : r = ⟨(i 0).val, idx2_lt0 i⟩ := Fin.ext hr
  obtain rfl : cc = ⟨(i 1).val, idx2_lt1 i⟩ := Fin.ext hc
  rw [X_eq, W_eq, b_eq]
  rfl

/-- WHAT A POINT OF THE LAST STRETCH WRITES BACK is its block of the layer's function. -/
theorem flushed_eq (c : Dev nD) (t : Fin cfg0.N) (hf : (cfg0.win 3).flush t = true) :
    (dats m 0 c).flushed 3 t = ((cfg0.win 3).blk t).view.read (Elt Ideal) (res m c) := by
  have h1 : t.val % 8 = 7 := (flush0_3 t).mp hf
  obtain ⟨-, -, -, -, -, -, e6, e7⟩ := idx_facts t
  rw [Value.flushed3]
  funext j
  obtain ⟨p, q, rfl⟩ : ∃ (p : Fin 512) (q : Fin 1024), j = ix2 p q := ⟨j 0, j 1, eq_ix2 j⟩
  show (outsAt0 m c t.val t.isLt).1 (ix2 p q) = res m c (((cfg0.win 3).blk t).view.emb (ix2 p q))
  rw [out_eq m c t h1 p q]
  refine (res_apply m c _ (row t p) (col t q) ?_ ?_).symm
  · show t.val / 32 * 512 + p.val = win0_3.index t (0 : Fin 2) * 512 + 1 * p.val
    omega
  · show t.val / 8 % 4 * 1024 + q.val = win0_3.index t (1 : Fin 2) * 1024 + 1 * q.val
    omega

/-- An entry of the array is in point `t`'s block iff each coordinate is in the block's range on its axis. -/
theorem mem_blk (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v20).slice (win0_3.rect t)).set ↔ _
  rw [View.set_slice_whole, Rect.mem_set_unit]
  exact Iff.rfl

/-- Every entry lies in the block some point of the last stretch writes back. -/
theorem cover (i : S4096x4096.Idx) :
    ∃ t : Fin cfg0.N, (cfg0.win 3).flush t = true ∧ i ∈ ((cfg0.win 3).blk t).view.set := by
  have h0 : (i 0).val < 4096 := idx2_lt0 i
  have h1 : (i 1).val < 4096 := idx2_lt1 i
  have hN : cfg0.N = 256 := N_0
  have hb : (i 0).val / 512 * 32 + (i 1).val / 1024 * 8 + 7 < cfg0.N := by rw [hN]; omega
  obtain ⟨-, -, -, -, -, -, e6, e7⟩ := idx_facts ⟨_, hb⟩
  refine ⟨⟨_, hb⟩, (flush0_3 ⟨_, hb⟩).mpr (by show ((i 0).val / 512 * 32 + (i 1).val / 1024 * 8 + 7) % 8 = 7; omega), ?_⟩
  rw [mem_blk]
  intro a
  match a with
  | ⟨0, _⟩ =>
    show win0_3.index ⟨_, hb⟩ (0 : Fin 2) * 512 ≤ (i 0).val ∧ (i 0).val < win0_3.index ⟨_, hb⟩ (0 : Fin 2) * 512 + 512
    rw [e6]
    show ((i 0).val / 512 * 32 + (i 1).val / 1024 * 8 + 7) / 32 * 512 ≤ (i 0).val ∧ (i 0).val < ((i 0).val / 512 * 32 + (i 1).val / 1024 * 8 + 7) / 32 * 512 + 512
    omega
  | ⟨1, _⟩ =>
    show win0_3.index ⟨_, hb⟩ (1 : Fin 2) * 1024 ≤ (i 1).val ∧ (i 1).val < win0_3.index ⟨_, hb⟩ (1 : Fin 2) * 1024 + 1024
    rw [e7]
    show ((i 0).val / 512 * 32 + (i 1).val / 1024 * 8 + 7) / 8 % 4 * 1024 ≤ (i 1).val ∧ (i 1).val < ((i 0).val / 512 * 32 + (i 1).val / 1024 * 8 + 7) / 8 % 4 * 1024 + 1024
    omega

/-- THE RESULT ARRAY after the run is the layer's function of the arguments. -/
theorem final (c : Dev nD) : (dats m 0 c).arrAt 3 cfg0.N = res m c :=
  (dats m 0 c).arrAt_eq_of_cover 3 (res m c) (flushed_eq m c) cover

/-- The kernel's run, read: the result array at the layer's function, the arguments unchanged. -/
theorem run : θ_run defs (onTc (τ := τ) (main (F := Ideal))) ⟨m, fun _ => 0, ρ⟩ fun r => ∀ c : Dev nD,
      r.2.mem ((c : Thread nD τ).loc main_v20) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KValue

end
-- ==== Proof.RefValue.lean ====
/-
  The reference computes the layer's one function: its matrix product is the whole contraction at each (row, column),
  its two broadcasts put entry `c` of the bias under column `c`, and its hyperbolic tangent is the same function on
  the extended reals as the kernel's. The dense matrix is the same host term on both sides and is never opened.
-/
import proofs.«176516_j15504831938689_1_alg».proof.Proof.Result
import proofs.«176516_j15504831938689_1_alg».proof.Proof.Gen.ReferenceIdeal.Read

noncomputable section

open Idealize.ShloMosaic Idealize.ShloMosaic.TcCoe

namespace Cert.ReferenceIdeal.RefValue

open Cert.ReferenceIdeal Cert.ReferenceIdeal.Read Idealize.ShloMosaic.ValueIdx Cert.BlockSum

/-- The reference's dense matrix is the kernel's: one term. -/
theorem dense_eq (x1 : (⟨S400000x2, .i32⟩ : BufTy).Contents (Elt Ideal)) (x2 : (⟨S400000, .f32⟩ : BufTy).Contents (Elt Ideal)) :
    val_main_v18 (F := Ideal) x1 x2 = Cert.KernelIdeal.Arr.dense (F := Ideal) x1 x2 := rfl

/-- The reference's last stage is the layer's function of the four arguments. -/
theorem ref_eq (x0 : (⟨S4096x8192, .f32⟩ : BufTy).Contents (Elt Ideal)) (x1 : (⟨S400000x2, .i32⟩ : BufTy).Contents (Elt Ideal))
    (x2 : (⟨S400000, .f32⟩ : BufTy).Contents (Elt Ideal)) (x3 : (⟨S4096, .f32⟩ : BufTy).Contents (Elt Ideal)) :
    val_main_v23 (F := Ideal) x0 x1 x2 x3 = Cert.KernelIdeal.Res.result x0 x1 x2 x3 := by
  funext i
  have el : ∀ k : Fin 8192, lidx_main_v19 i k = ix2 (⟨(i 0).val, idx2_lt0 i⟩ : Fin 4096) k := fun k =>
    funext fun a => Fin.ext (by match a with | ⟨0, _⟩ => rfl | ⟨1, _⟩ => rfl)
  have er : ∀ k : Fin 8192, ridx_main_v19 i k = ix2 k (⟨(i 1).val, idx2_lt1 i⟩ : Fin 4096) := fun k =>
    funext fun a => Fin.ext (by match a with | ⟨0, _⟩ => rfl | ⟨1, _⟩ => rfl)
  have eb : idx_main_v20 (idx_main_v21 i) = ix1 (⟨(i 1).val, idx2_lt1 i⟩ : Fin 4096) :=
    funext fun a => Fin.ext (by match a with | ⟨0, _⟩ => rfl)
  rw [val_main_v23_apply, val_main_v22_apply, val_main_v19_apply, val_main_v21_apply, val_main_v20_apply, eb, dense_eq]
  simp only [el, er]
  unfold Cert.KernelIdeal.Res.result layer
  rw [psum_full]
  rfl

end Cert.ReferenceIdeal.RefValue

end
-- ==== Proof.lean ====
/-
  A dense layer `tanh (x · W + b)` whose 8192 × 4096 matrix `W` is built on the host by adding 400000 values into a
  zero matrix at given (row, column) pairs. Both programs build `W` with the same host operations; the kernel then
  forms the product block by block — 512 × 1024 output blocks, the contracted axis in eight stretches of 1024 accumulated
  in a scratch block that is reset at the first stretch, bias and hyperbolic tangent applied at the last — while the
  reference takes one whole matrix product, adds the broadcast bias and applies the hyperbolic tangent.

  Over the extended reals the two agree entry by entry: narrowing the factors to bf16 is the identity there, the
  product unit started from zero is the plain sum of products, the eight partial sums added in order are the whole
  contraction because addition of extended reals is associative and commutative (no finiteness is needed), the bias
  block under a column is the bias' entry of that column, and both hyperbolic tangents are one function.

    Proof/BlockSum.lean     the contraction as partial sums over stretches of 1024 terms
    Proof/Payloads.lean     what one grid point leaves in the accumulator and the output block, read at one entry
    Proof/Arrays.lean       the arrays the region finds: the dense matrix (never opened) and the bias as one row
    Proof/Accum.lean        the accumulator after every point, by induction along the points
    Proof/Result.lean       the layer as one function of the four arguments
    Proof/KernelValue.lean  the kernel's result array is that function (the written-back blocks tile the array)
    Proof/RefValue.lean     the reference's last stage is that function
-/
import proofs.«176516_j15504831938689_1_alg».proof.Defs
import proofs.«176516_j15504831938689_1_alg».proof.Proof.Gen.Kernel
import proofs.«176516_j15504831938689_1_alg».proof.Proof.Gen.Kernel.Skeleton
import proofs.«176516_j15504831938689_1_alg».proof.Proof.Gen.Kernel.Launch
import proofs.«176516_j15504831938689_1_alg».proof.Proof.Gen.Kernel.Points
import proofs.«176516_j15504831938689_1_alg».proof.Proof.Gen.Kernel.Frame
import proofs.«176516_j15504831938689_1_alg».proof.Proof.Gen.KernelIdeal
import proofs.«176516_j15504831938689_1_alg».proof.Proof.Gen.KernelIdeal.Skeleton
import proofs.«176516_j15504831938689_1_alg».proof.Proof.Gen.KernelIdeal.Launch
import proofs.«176516_j15504831938689_1_alg».proof.Proof.Gen.KernelIdeal.Points
import proofs.«176516_j15504831938689_1_alg».proof.Proof.Gen.KernelIdeal.Frame
import proofs.«176516_j15504831938689_1_alg».proof.Proof.Gen.ReferenceIdeal
import proofs.«176516_j15504831938689_1_alg».proof.Proof.Gen.Pre_finite_inputs
import proofs.«176516_j15504831938689_1_alg».proof.Proof.Gen.KernelIdeal.Value
import proofs.«176516_j15504831938689_1_alg».proof.Proof.Gen.ReferenceIdeal.Run
import proofs.«176516_j15504831938689_1_alg».proof.Proof.Gen.ReferenceIdeal.Read
import proofs.«176516_j15504831938689_1_alg».proof.Proof.KernelValue
import proofs.«176516_j15504831938689_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both result arrays end at the layer's function of arguments that agree. -/
theorem algebraic : Cert.algebraic_KernelIdeal_ReferenceIdeal := by
  intro m ρ m' ρ' _ hagree
  refine ⟨fun c => Cert.KernelIdeal.KValue.res m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
